-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S16x64x64 : Shape := ⟨3, ![16, 64, 64]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel

variable [Facts]

def fn {F : FTy → Type} [FloatOps F] (main_arg0 : FVec F S16x4096x512 .f32) (main_arg1 : FVec F S16x4096x512 .f32) (main_arg2 : IVec S16x64x64 32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S16x4096x512 .f32 := Host.absf main_arg1
  let main_cst_0 : FVec F S_ .f32 := constant S_ .f32 0x7F800000#32
  let main_v5 : FVec F S16x4096x512 .f32 := broadcastInDim S16x4096x512 ![] bcast_S_S16x4096x512 main_cst_0
  let main_v6 : IVec S16x4096x512 1 := cmpf .olt main_v4 main_v5
  let main_c_1 : IVec S_ 1 := constantI S_ 1 1#1
  let main_v7 : IVec S_ 1 := (fun x v => Host.reduce IntOp.andi x v reducesTo_S16x4096x512_S_d0_1_2 h_S_) main_v6 main_c_1
  let main_v8 : IVec S_ 1 := andi main_v3 main_v7
  main_v8
-- ==== Kernel.lean ====
abbrev S16x4096x512 : Shape := ⟨3, ![16, 4096, 512]⟩
abbrev S16x64x64 : Shape := ⟨3, ![16, 64, 64]⟩
abbrev S16x4096x1 : Shape := ⟨3, ![16, 4096, 1]⟩
abbrev S16x1x1 : Shape := ⟨3, ![16, 1, 1]⟩
abbrev S1x1024x512 : Shape := ⟨3, ![1, 1024, 512]⟩
abbrev S1x1024x1 : Shape := ⟨3, ![1, 1024, 1]⟩
abbrev S1x1x1 : Shape := ⟨3, ![1, 1, 1]⟩
abbrev S1 : Shape := ⟨1, ![1]⟩
abbrev S16 : Shape := ⟨1, ![16]⟩
abbrev S_ : Shape := ⟨0, ![]⟩

abbrev nBuf : Space → Nat
  | .hbm => 11
  | .vmem => 11
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x64x64, .i32⟩
  | .hbm, ⟨3, _⟩ => ⟨S16x4096x1, .i32⟩
  | .hbm, ⟨4, _⟩ => ⟨S16x4096x1, .f32⟩
  | .hbm, ⟨5, _⟩ => ⟨S16x1x1, .f32⟩
  | .hbm, ⟨6, _⟩ => ⟨S16, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x1, .f32⟩
  | .local _ .vmem, ⟨5, _⟩ => ⟨S1x1024x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_29 : BitVec 32 := 0#32
  let v37 : BitVec 1 := Scalar.cmpi .ne v36 c0_i32_29
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16x64x64_S16x4096x1 : S16x64x64.ShapeCasts S16x4096x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S1x1024x512_S1x1024x512_0_0_0 : ∀ a, (![0, 0, 0] : Fin 3 → Nat) a + S1x1024x512.size a ≤ S1x1024x512.size a
  h_S1x1024x512 : 0 < S1x1024x512.numel
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  broadcasts_S1x1024x1_S1x1024x512 : S1x1024x1.Broadcasts S1x1024x512
  reduces_S1x1024x512_S1 : S1x1024x512.Reduces [1, 2] S1
  shapeCasts_S1_S1x1x1 : S1.ShapeCasts S1x1x1
  shapeCasts_S16x1x1_S16 : S16x1x1.ShapeCasts S16
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x4096x512.size a
  hwx0_0 : ∀ i : grid0.Coords, EltTy.bits .f32 = 32 ∨ (Rect.block (s := S16x4096x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S16x4096x512.size a
  hwx0_1 : ∀ i : grid0.Coords, EltTy.bits .f32 = 32 ∨ (Rect.block (s := S16x4096x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S16x4096x1.size a
  hwx0_2 : ∀ i : grid0.Coords, EltTy.bits .f32 = 32 ∨ (Rect.block (s := S16x4096x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)

variable [Facts₀]

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x4096x512 : Shape := ⟨3, ![16, 4096, 512]⟩
abbrev S16x64x64 : Shape := ⟨3, ![16, 64, 64]⟩
abbrev S16x4096x1 : Shape := ⟨3, ![16, 4096, 1]⟩
abbrev S_ : Shape := ⟨0, ![]⟩
abbrev S16 : Shape := ⟨1, ![16]⟩

abbrev nBuf : Space → Nat
  | .hbm => 43
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x64x64, .i32⟩
  | .hbm, ⟨3, _⟩ => ⟨S16x4096x1, .i32⟩
  | .hbm, ⟨4, _⟩ => ⟨S16x4096x1, .f32⟩
  | .hbm, ⟨5, _⟩ => ⟨S16x4096x512, .f32⟩
  | .hbm, ⟨6, _⟩ => ⟨S16x4096x512, .f32⟩
  | .hbm, ⟨7, _⟩ => ⟨S16x4096x512, .f32⟩
  | .hbm, ⟨8, _⟩ => ⟨S_, .f32⟩
  | .hbm, ⟨9, _⟩ => ⟨S16, .f32⟩
  | .hbm, ⟨10, _⟩ => ⟨S16x4096x512, .f32⟩
  | .hbm, ⟨11, _⟩ => ⟨S16x4096x512, .f32⟩
  | .hbm, ⟨12, _⟩ => ⟨S16x4096x512, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16x4096x512, .f32⟩
  | .hbm, ⟨17, _⟩ => ⟨S16x4096x512, .f32⟩
  | .hbm, ⟨18, _⟩ => ⟨S16x4096x512, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .i1⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .i1⟩
  | .hbm, ⟨30, _⟩ => ⟨S_, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩

abbrev nD : Nat := 1
abbrev τ : Topo := Topo.v7x

variable {F : FTy → Type} [FloatOps F]

class Facts₀ : Prop where
  shapeCasts_S16x64x64_S16x4096x1 : S16x64x64.ShapeCasts S16x4096x1
  bcast_S16x4096x1_S16x4096x512_0_1_2 : S16x4096x1.BroadcastsInDim S16x4096x512 (![0, 1, 2] : Fin 3 → Fin S16x4096x512.rank)
  reducesTo_S16x4096x512_S16_d1_2 : S16x4096x512.ReducesTo [1, 2] S16
  h_S_ : 0 < S_.numel
  bcast_S_S16 : S_.BroadcastsInDim S16 (![] : Fin 0 → Fin S16.rank)
  reducesTo_S16_S_d0 : S16.ReducesTo [0] S_

variable [Facts₀]

class Facts : Prop extends Facts₀ where

variable [Facts]
-- ==== Proof.Pieces.lean ====
/- What one run of the kernel body leaves behind, read back as values, for each of the three kinds of grid point.

  The grid has 16 × 4 points: batch member b, row tile j.  Three one-element scratch buffers carry, across the four tiles
  of a member, the running sums of m·p·t, m·p·p and m·t·t.  At j = 0 the body resets them; at every j it adds the tile's
  total to each; at j = 3 it also turns the three finished sums into the member's loss and stores it in the output block.
  Each lemma says that a buffer ends holding the body's own arithmetic term (the generated payload) of the input blocks
  and of what the buffer held before.
-/
import proofs.«152356_j14499809591887_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Every load and store of the body starts at the origin of its buffer. -/
theorem hz3 : (![0, 0, 0] : Fin 3 → Nat) = fun _ => 0 := funext fun a => by fin_cases a <;> rfl

/-- At a tile that opens a batch member the body first stores zero into the running sum of m·p·t, reads it back, and leaves zero
    plus this tile's total. -/
theorem scratch0_first (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S1x1024x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0_0 i) (hc1 : ¬cond0_1 i) (x0 x1 : Vec F S1x1024x512 .f32) (x2 : Vec F S1x1024x1 .f32) :
    sout0_A_0 c i arg2 harg2 arg3 harg3 arg4 harg4 arg5 harg5 arg6 harg6 arg7 harg7 arg8 harg8 hc0 hc1 x0 x1 x2 = k0_pay8 x0 x1 x2 k0_pay3 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg6.read_unread, harg7.read_unread, harg8.read_unread, View.ld_unit_zero (S := S1x1024x512) hz3, View.ld_unit_zero (S := S1x1024x1) hz3, View.ld_unit_zero (S := S1x1x1) hz3]

/-- At a tile that opens a batch member the body first stores zero into the running sum of m·p·p, reads it back, and leaves zero
    plus this tile's total. -/
theorem scratch1_first (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S1x1024x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0_0 i) (hc1 : ¬cond0_1 i) (x0 x1 : Vec F S1x1024x512 .f32) (x2 : Vec F S1x1024x1 .f32) :
    sout0_A_1 c i arg2 harg2 arg3 harg3 arg4 harg4 arg5 harg5 arg6 harg6 arg7 harg7 arg8 harg8 hc0 hc1 x0 x1 x2 = k0_pay9 x0 x2 k0_pay4 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg6.read_unread, harg7.read_unread, harg8.read_unread, View.ld_unit_zero (S := S1x1024x512) hz3, View.ld_unit_zero (S := S1x1024x1) hz3, View.ld_unit_zero (S := S1x1x1) hz3]

/-- At a tile that opens a batch member the body first stores zero into the running sum of m·t·t, reads it back, and leaves zero
    plus this tile's total. -/
theorem scratch2_first (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S1x1024x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : cond0_0 i) (hc1 : ¬cond0_1 i) (x0 x1 : Vec F S1x1024x512 .f32) (x2 : Vec F S1x1024x1 .f32) :
    sout0_A_2 c i arg2 harg2 arg3 harg3 arg4 harg4 arg5 harg5 arg6 harg6 arg7 harg7 arg8 harg8 hc0 hc1 x0 x1 x2 = k0_pay1 x1 k0_pay5 (k0_pay10 x2) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg6.read_unread, harg7.read_unread, harg8.read_unread, View.ld_unit_zero (S := S1x1024x512) hz3, View.ld_unit_zero (S := S1x1024x1) hz3, View.ld_unit_zero (S := S1x1x1) hz3]

/-- At a middle tile the body adds the tile's total to what the tile before left in the running sum of m·p·t. -/
theorem scratch0_middle (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S1x1024x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0_0 i) (hc1 : ¬cond0_1 i) (x0 x1 : Vec F S1x1024x512 .f32) (x2 : Vec F S1x1024x1 .f32) (xs0 xs1 xs2 : Vec F S1x1x1 .f32) :
    sout0_B_0 c i arg2 harg2 arg3 harg3 arg4 harg4 arg5 harg5 arg6 harg6 arg7 harg7 arg8 harg8 hc0 hc1 x0 x1 x2 xs0 xs1 xs2 = k0_pay8 x0 x1 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz3]
  simp only [View.readAt_eq_ld, harg2.read_unread, harg3.read_unread, harg4.read_unread, harg6.read_unread, harg7.read_unread, harg8.read_unread, View.ld_unit_zero (S := S1x1024x512) hz3, View.ld_unit_zero (S := S1x1024x1) hz3, View.ld_unit_zero (S := S1x1x1) hz3]

/-- At a middle tile the body adds the tile's total to what the tile before left in the running sum of m·p·p. -/
theorem scratch1_middle (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S1x1024x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0_0 i) (hc1 : ¬cond0_1 i) (x0 x1 : Vec F S1x1024x512 .f32) (x2 : Vec F S1x1024x1 .f32) (xs0 xs1 xs2 : Vec F S1x1x1 .f32) :
    sout0_B_1 c i arg2 harg2 arg3 harg3 arg4 harg4 arg5 harg5 arg6 harg6 arg7 harg7 arg8 harg8 hc0 hc1 x0 x1 x2 xs0 xs1 xs2 = k0_pay9 x0 x2 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz3]
  simp only [View.readAt_eq_ld, harg2.read_unread, harg3.read_unread, harg4.read_unread, harg6.read_unread, harg7.read_unread, harg8.read_unread, View.ld_unit_zero (S := S1x1024x512) hz3, View.ld_unit_zero (S := S1x1024x1) hz3, View.ld_unit_zero (S := S1x1x1) hz3]

/-- At a middle tile the body adds the tile's total to what the tile before left in the running sum of m·t·t. -/
theorem scratch2_middle (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S1x1024x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0_0 i) (hc1 : ¬cond0_1 i) (x0 x1 : Vec F S1x1024x512 .f32) (x2 : Vec F S1x1024x1 .f32) (xs0 xs1 xs2 : Vec F S1x1x1 .f32) :
    sout0_B_2 c i arg2 harg2 arg3 harg3 arg4 harg4 arg5 harg5 arg6 harg6 arg7 harg7 arg8 harg8 hc0 hc1 x0 x1 x2 xs0 xs1 xs2 = k0_pay1 x1 xs2 (k0_pay10 x2) := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz3]
  simp only [View.readAt_eq_ld, harg2.read_unread, harg3.read_unread, harg4.read_unread, harg6.read_unread, harg7.read_unread, harg8.read_unread, View.ld_unit_zero (S := S1x1024x512) hz3, View.ld_unit_zero (S := S1x1024x1) hz3, View.ld_unit_zero (S := S1x1x1) hz3]

/-- At the last tile of a batch member the body adds the tile's total to what the tile before left in the running sum of m·p·t. -/
theorem scratch0_last (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S1x1024x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0_0 i) (hc1 : cond0_1 i) (x0 x1 : Vec F S1x1024x512 .f32) (x2 : Vec F S1x1024x1 .f32) (xs0 xs1 xs2 : Vec F S1x1x1 .f32) :
    sout0_C_0 c i arg2 harg2 arg3 harg3 arg4 harg4 arg5 harg5 arg6 harg6 arg7 harg7 arg8 harg8 hc0 hc1 x0 x1 x2 xs0 xs1 xs2 = k0_pay8 x0 x1 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz3]
  simp only [View.readAt_eq_ld, harg2.read_unread, harg3.read_unread, harg4.read_unread, harg6.read_unread, harg7.read_unread, harg8.read_unread, View.ld_unit_zero (S := S1x1024x512) hz3, View.ld_unit_zero (S := S1x1024x1) hz3, View.ld_unit_zero (S := S1x1x1) hz3]

/-- At the last tile of a batch member the body adds the tile's total to what the tile before left in the running sum of m·p·p. -/
theorem scratch1_last (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S1x1024x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0_0 i) (hc1 : cond0_1 i) (x0 x1 : Vec F S1x1024x512 .f32) (x2 : Vec F S1x1024x1 .f32) (xs0 xs1 xs2 : Vec F S1x1x1 .f32) :
    sout0_C_1 c i arg2 harg2 arg3 harg3 arg4 harg4 arg5 harg5 arg6 harg6 arg7 harg7 arg8 harg8 hc0 hc1 x0 x1 x2 xs0 xs1 xs2 = k0_pay9 x0 x2 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz3]
  simp only [View.readAt_eq_ld, harg2.read_unread, harg3.read_unread, harg4.read_unread, harg6.read_unread, harg7.read_unread, harg8.read_unread, View.ld_unit_zero (S := S1x1024x512) hz3, View.ld_unit_zero (S := S1x1024x1) hz3, View.ld_unit_zero (S := S1x1x1) hz3]

/-- At the last tile of a batch member the body adds the tile's total to what the tile before left in the running sum of m·t·t. -/
theorem scratch2_last (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S1x1024x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0_0 i) (hc1 : cond0_1 i) (x0 x1 : Vec F S1x1024x512 .f32) (x2 : Vec F S1x1024x1 .f32) (xs0 xs1 xs2 : Vec F S1x1x1 .f32) :
    sout0_C_2 c i arg2 harg2 arg3 harg3 arg4 harg4 arg5 harg5 arg6 harg6 arg7 harg7 arg8 harg8 hc0 hc1 x0 x1 x2 xs0 xs1 xs2 = k0_pay1 x1 xs2 (k0_pay10 x2) := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz3]
  simp only [View.readAt_eq_ld, harg2.read_unread, harg3.read_unread, harg4.read_unread, harg6.read_unread, harg7.read_unread, harg8.read_unread, View.ld_unit_zero (S := S1x1024x512) hz3, View.ld_unit_zero (S := S1x1024x1) hz3, View.ld_unit_zero (S := S1x1x1) hz3]

/-- At the last tile of a batch member the body then reads the three finished sums back and stores the member's loss,
    a function of the three, into the output block. -/
theorem out_last (c : Dev nD) (i : grid0.Coords) (arg2 : Memref sig .tc .vmem S1x1024x512 .f32) (harg2 : arg2.IsWhole) (arg3 : Memref sig .tc .vmem S1x1024x512 .f32) (harg3 : arg3.IsWhole) (arg4 : Memref sig .tc .vmem S1x1024x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0_0 i) (hc1 : cond0_1 i) (x0 x1 : Vec F S1x1024x512 .f32) (x2 : Vec F S1x1024x1 .f32) (xs0 xs1 xs2 : Vec F S1x1x1 .f32) :
    out0_C_3 c i arg2 harg2 arg3 harg3 arg4 harg4 arg5 harg5 arg6 harg6 arg7 harg7 arg8 harg8 hc0 hc1 x0 x1 x2 xs0 xs1 xs2
      = k0_pay2 (k0_pay9 x0 x2 xs1) (k0_pay1 x1 xs2 (k0_pay10 x2)) (k0_pay8 x0 x1 x2 xs0) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz3]
  simp only [View.readAt_eq_ld, harg2.read_unread, harg3.read_unread, harg4.read_unread, harg6.read_unread, harg7.read_unread, harg8.read_unread, View.ld_unit_zero (S := S1x1024x512) hz3, View.ld_unit_zero (S := S1x1024x1) hz3, View.ld_unit_zero (S := S1x1x1) hz3, View.readCov_unit_zero (S := S1x1x1) _ hz3]

end Cert.KernelIdeal.Pieces

end
-- ==== Proof.Accum.lean ====
/-
  The three running sums across the grid, and the loss a batch member's last tile stores.

  Point n of the 64-point grid works on batch member n / 4 and row tile n % 4.  Writing S(n) for the triple of running sums
  after point n: at a tile that opens a member S(n) is one step from the zeros; at any other tile it is one step from
  S(n - 1); and at a member's last tile the output block receives the loss computed from S(n).  Hence S(n) is the fold of
  the step over the tiles of n's member up to n, starting from zero: the grid is never enumerated.
-/
import proofs.«152356_j14499809591887_1_alg».proof.Proof.Pieces
import Idealize.ShloMosaic.Lib.Pipeline.Value

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Pieces

variable {F : FTy → Type} [FloatOps F]
variable (m : (ℓ : Loc nD τ sig) → Buf (Elt F) ℓ)

/-- The blocks the body sees at point `t`: 1024 rows of the first input, of the second, and of the mask column. -/
abbrev pblk (c : Dev nD) (t : Fin cfg0.N) : Vec F S1x1024x512 .f32 := iblk m c 0 t
abbrev tblk (c : Dev nD) (t : Fin cfg0.N) : Vec F S1x1024x512 .f32 := iblk m c 1 t
abbrev mblk (c : Dev nD) (t : Fin cfg0.N) : Vec F S1x1024x1 .f32 := iblk m c 2 t

/-- A triple of one-element buffers: the running sums of m·p·t, m·p·p, m·t·t. -/
abbrev Sums (F : FTy → Type) : Type := Vec F S1x1x1 .f32 × Vec F S1x1x1 .f32 × Vec F S1x1x1 .f32

/-- One tile's step: each running sum plus the tile's total of its product. -/
def step (c : Dev nD) (t : Fin cfg0.N) (s : Sums F) : Sums F :=
  (k0_pay8 (pblk m c t) (tblk m c t) (mblk m c t) s.1, k0_pay9 (pblk m c t) (mblk m c t) s.2.1,
    k0_pay1 (tblk m c t) s.2.2 (k0_pay10 (mblk m c t)))

/-- What the reset stores. -/
def zeros : Sums F := (k0_pay3, k0_pay4, k0_pay5)

/-- After a tile that opens a batch member the sums are one step from the zeros. -/
theorem sums_first (c : Dev nD) (t : Fin cfg0.N) (h0 : t.val % 4 = 0) :
    (outsAt0 m c t.val t.isLt).2 = step m c t zeros := by
  have h1 : ¬t.val % 4 = 3 := by omega
  rw [outsAt0_A m c t h0 h1]
  dsimp only [step, zeros]
  exact congrArg₂ Prod.mk
    (scratch0_first c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t))
    (congrArg₂ Prod.mk
      (scratch1_first c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t))
      (scratch2_first c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)))

/-- After any other tile they are one step from what the tile before left. -/
theorem sums_later (c : Dev nD) (t : Fin cfg0.N) (h0 : ¬t.val % 4 = 0) :
    (outsAt0 m c t.val t.isLt).2 = step m c t (outsAt0 m c (t.val - 1) (Nat.lt_of_le_of_lt (Nat.sub_le _ _) t.isLt)).2 := by
  by_cases h1 : t.val % 4 = 3
  · rw [outsAt0_C m c t h0 h1]
    dsimp only [step]
    exact congrArg₂ Prod.mk
      (scratch0_last c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
      (congrArg₂ Prod.mk
        (scratch1_last c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
        (scratch2_last c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2))
  · rw [outsAt0_B m c t h0 h1]
    dsimp only [step]
    exact congrArg₂ Prod.mk
      (scratch0_middle c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
      (congrArg₂ Prod.mk
        (scratch1_middle c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
        (scratch2_middle c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2))

/-- At a member's last tile the output block receives the loss computed from that point's own three sums. -/
theorem loss_at_last (c : Dev nD) (t : Fin cfg0.N) (h1 : t.val % 4 = 3) :
    (outsAt0 m c t.val t.isLt).1
      = k0_pay2 (outsAt0 m c t.val t.isLt).2.2.1 (outsAt0 m c t.val t.isLt).2.2.2 (outsAt0 m c t.val t.isLt).2.1 := by
  have h0 : ¬t.val % 4 = 0 := by omega
  rw [sums_later m c t h0, outsAt0_C m c t h0 h1]
  dsimp only [step]
  exact out_last c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Accum

end
-- ==== Proof.Sums.lean ====
/-
  The arithmetic the masked cosine loss rests on, with no program in sight.

  For one batch member the loss is built from three sums over all 4096 rows and 512 features of
  m·p·t, m·p·p and m·t·t (m the row's mask value, p and t the two inputs).  One side takes each sum
  in one piece, over the indices of the whole [16, 4096, 512] array whose batch coordinate is the
  member's; the other takes it tile by tile, four tiles of 1024 rows, adding each tile's total to a
  running value that starts at zero.  Addition of extended reals is commutative and associative, so
  the two agree whatever the entries are: no finiteness is used anywhere below.
-/
import Idealize.ShloMosaic.PureOps.Ideal
import Idealize.ShloMosaic.PureOps.Ideal.Laws
import Idealize.ShloMosaic.Lib.ValueIdx

open scoped BigOperators

namespace MaskedCosine

open Idealize.ShloMosaic Idealize.ShloMosaic.ValueIdx

/-! ## Sums over the indices of a rank-3 array -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- With a leading axis of length one, the sum is the double sum over the other two coordinates. -/
theorem sum_idx3_unit {M : Type*} [AddCommMonoid M] {n1 n2 : Nat} (f : (⟨3, ![1, n1, n2]⟩ : Shape).Idx → M) :
    ∑ i, f i = ∑ b : Fin n1, ∑ c : Fin n2, f (ix3 0 b c) := by
  rw [sum_idx3, Fin.sum_univ_one]

/-! ## Rows regrouped into tiles -/

/-- Row `r` of tile `j` is row `1024 j + r` of the whole. -/
def tileRow (j : Fin 4) (r : Fin 1024) : Fin 4096 := ⟨1024 * j.val + r.val, by omega⟩

/-- A sum over all 4096 rows is the sum over the four tiles of the sums over each tile's 1024 rows. -/
theorem sum_rows_eq_sum_tiles {M : Type*} [AddCommMonoid M] (g : Fin 4096 → M) :
    ∑ n : Fin 4096, g n = ∑ j : Fin 4, ∑ r : Fin 1024, g (tileRow j r) := by
  rw [← Fintype.sum_prod_type']
  refine (Fintype.sum_equiv (finProdFinEquiv (m := 4) (n := 1024)) _ _ fun p => ?_).symm
  refine congrArg g (Fin.ext ?_)
  show 1024 * p.1.val + p.2.val = p.2.val + 1024 * p.1.val
  omega

/-! ## The whole-array sum of one batch member -/

/-- The indices of the [16, 4096, 512] array with batch coordinate `a`, as pairs (row, feature). -/
def memberEmb (a : Fin 16) : Fin 4096 × Fin 512 ↪ (⟨3, ![16, 4096, 512]⟩ : Shape).Idx :=
  ⟨fun p => ix3 a p.1 p.2, fun p q h => Prod.ext (congrFun h 1) (congrFun h 2)⟩

/-- The indices that a sum over rows and features sends to batch member `j` are exactly those whose batch
    coordinate is `j`'s. -/
theorem filter_drop_member (h : (⟨3, ![16, 4096, 512]⟩ : Shape).ReducesTo [1, 2] ⟨1, ![16]⟩)
    (j : (⟨1, ![16]⟩ : Shape).Idx) :
    Finset.univ.filter (fun i : (⟨3, ![16, 4096, 512]⟩ : Shape).Idx => h.drop i = j) = Finset.univ.map (memberEmb (j 0)) := by
  ext i
  simp only [Finset.mem_filter, Finset.mem_univ, true_and, Finset.mem_map, memberEmb, Function.Embedding.coeFn_mk]
  constructor
  · intro hi
    refine ⟨(i 1, i 2), ?_⟩
    have h0 : i 0 = j 0 :=
      Fin.ext ((Shape.ReducesTo.drop_apply_val_of_eq h i 0 0).symm.trans (congrArg Fin.val (congrFun hi 0)))
    rw [← h0]
    exact (eq_ix3 i).symm
  · rintro ⟨p, rfl⟩
    funext b
    match b with
    | ⟨0, _⟩ => exact Fin.ext (Shape.ReducesTo.drop_apply_val_of_eq h _ 0 0)

/-- So the sum over rows and features from `init`, read at batch member `j`, is `init` plus the double sum over that
    member's rows and features. -/
theorem hostSum_member (h : (⟨3, ![16, 4096, 512]⟩ : Shape).ReducesTo [1, 2] ⟨1, ![16]⟩)
    (x : (⟨3, ![16, 4096, 512]⟩ : Shape).Idx → EReal) (init : EReal) (j : (⟨1, ![16]⟩ : Shape).Idx) :
    Ideal.hostReduceAdd h x init j = init + ∑ n : Fin 4096, ∑ d : Fin 512, x (ix3 (j 0) n d) := by
  unfold Ideal.hostReduceAdd
  rw [filter_drop_member, Finset.sum_map, Fintype.sum_prod_type]
  rfl

/-! ## The running value after the four tiles is the whole sum -/

/-- Starting from zero and adding the four tile totals one after the other gives zero plus the sum over all rows:
    the order and grouping of an addition of extended reals do not matter. -/
theorem tiles_chain_eq (g : Fin 4096 → Fin 512 → EReal) :
    (0 : EReal) + ∑ s ∈ Finset.range 4, (if hs : s < 4 then ∑ r : Fin 1024, ∑ d : Fin 512, g (tileRow ⟨s, hs⟩ r) d else 0)
      = 0 + ∑ n : Fin 4096, ∑ d : Fin 512, g n d := by
  rw [sum_rows_eq_sum_tiles (fun n => ∑ d : Fin 512, g n d), ← Fin.sum_univ_eq_sum_range (fun s => if hs : s < 4 then ∑ r : Fin 1024, ∑ d : Fin 512, g (tileRow ⟨s, hs⟩ r) d else 0) 4]
  refine congrArg _ (Finset.sum_congr rfl fun j _ => ?_)
  rw [dif_pos j.isLt]

/-! ## Four steps from zero -/

/-- A quantity indexed by the grid's points that is `0 + T n` at every point divisible by four and the point before's
    value plus `T (n + 1)` at every other point is, at the last point of a group of four, zero plus the four `T`s of
    its group. -/
theorem four_steps {N : ℕ} (f : (n : ℕ) → n < N → EReal) (T : ℕ → EReal)
    (h0 : ∀ (n : ℕ) (h : n < N), n % 4 = 0 → f n h = 0 + T n)
    (hs : ∀ (n : ℕ) (h : n + 1 < N), ¬(n + 1) % 4 = 0 → f (n + 1) h = f n (Nat.lt_of_succ_lt h) + T (n + 1))
    (t : ℕ) (ht : t < N) (h3 : t % 4 = 3) :
    f t ht = 0 + ∑ s ∈ Finset.range 4, T (4 * (t / 4) + s) := by
  have key : ∀ (q : ℕ) (hq : 4 * q + 3 < N), f (4 * q + 3) hq = 0 + ∑ s ∈ Finset.range 4, T (4 * q + s) := by
    intro q hq
    have e0 : f (4 * q) (by omega) = 0 + T (4 * q) := h0 (4 * q) (by omega) (by omega)
    have e1 : f (4 * q + 1) (by omega) = f (4 * q) (by omega) + T (4 * q + 1) := hs (4 * q) (by omega) (by omega)
    have e2 : f (4 * q + 2) (by omega) = f (4 * q + 1) (by omega) + T (4 * q + 2) := hs (4 * q + 1) (by omega) (by omega)
    have e3 : f (4 * q + 3) hq = f (4 * q + 2) (by omega) + T (4 * q + 3) := hs (4 * q + 2) hq (by omega)
    rw [e3, e2, e1, e0]
    simp only [Finset.sum_range_succ, Finset.sum_range_zero, zero_add, Nat.add_zero, add_assoc]
  have same : ∀ (u : ℕ) (hu : u < N), u = t → f u hu = f t ht := fun u hu e => by subst e; rfl
  have e : 4 * (t / 4) + 3 = t := by omega
  rw [← same (4 * (t / 4) + 3) (by omega) e]
  exact key (t / 4) (by omega)

/-! ## From the three sums to the loss -/

/-- The loss of one batch member from its three sums: with `den = √pr · √gt`, it is `(0 − dot) / den` where
    `den > 0` and zero elsewhere (the inner choice keeps the divisor away from zero where the outer one discards
    the quotient anyway). -/
noncomputable def lossOf (dot pr gt : Ideal .f32) : Ideal .f32 :=
  Scalar.select (FloatOps.cmpf .ogt (FloatOps.mulf (FloatOps.sqrt pr) (FloatOps.sqrt gt)) (FloatOps.ofBits .f32 0x00000000#32))
    (FloatOps.divf (FloatOps.subf (FloatOps.ofBits .f32 0x00000000#32) dot)
      (Scalar.select (FloatOps.cmpf .ogt (FloatOps.mulf (FloatOps.sqrt pr) (FloatOps.sqrt gt)) (FloatOps.ofBits .f32 0x00000000#32))
        (FloatOps.mulf (FloatOps.sqrt pr) (FloatOps.sqrt gt)) (FloatOps.ofBits .f32 0x3F800000#32)))
    (FloatOps.ofBits .f32 0x00000000#32)

/-! ## The result as one function of the mask and the two inputs -/

/-- A member's sum over all rows and features of mask · A · B. -/
noncomputable def memberSum (mk : FVec Ideal ⟨3, ![16, 4096, 1]⟩ .f32) (A B : FVec Ideal ⟨3, ![16, 4096, 512]⟩ .f32) (q : Fin 16) : EReal :=
  ∑ n : Fin 4096, ∑ d : Fin 512, mk (ix3 q n 0) * A (ix3 q n d) * B (ix3 q n d)

/-- A member's loss: the loss of its three sums m·p·t, m·p·p, m·t·t, each taken from zero. -/
noncomputable def memberLossOf (mk : FVec Ideal ⟨3, ![16, 4096, 1]⟩ .f32) (p t : FVec Ideal ⟨3, ![16, 4096, 512]⟩ .f32)
    (q : Fin 16) : EReal :=
  lossOf (0 + memberSum mk p t q) (0 + memberSum mk p p q) (0 + memberSum mk t t q)

/-! ## From the sixteen losses to the result -/

/-- The mean of the sixteen members' losses as both programs take it: their sum from zero, divided by sixteen. -/
noncomputable def meanOf (v : FVec Ideal ⟨1, ![16]⟩ .f32) : FVec Ideal ⟨0, ![]⟩ .f32 :=
  Host.divf (F := Ideal)
    (Host.reduceAdd (F := Ideal) v (constant (F := Ideal) ⟨0, ![]⟩ .f32 0x00000000#32)
      (by decide : (⟨1, ![16]⟩ : Shape).ReducesTo [0] ⟨0, ![]⟩) (by decide : 0 < (⟨0, ![]⟩ : Shape).numel))
    (constant (F := Ideal) ⟨0, ![]⟩ .f32 0x41800000#32)

/-- THE RESULT both programs compute: the mean of the sixteen members' losses. -/
noncomputable def result (mk : FVec Ideal ⟨3, ![16, 4096, 1]⟩ .f32) (p t : FVec Ideal ⟨3, ![16, 4096, 512]⟩ .f32) :
    FVec Ideal ⟨0, ![]⟩ .f32 :=
  meanOf (fun j => memberLossOf mk p t (j 0))

end MaskedCosine
-- ==== Proof.TileTotals.lean ====
/-
  The body's arithmetic read at the one index of its one-element buffers, over the extended reals.

  Each accumulator update is "what the buffer held, plus the total over the tile's 1024 rows and 512 features of a product
  of mask, first input and second input entries"; the reset stores zero; and the output payload is the scalar loss of the
  three sums.  A tile's total is a sum over every index of the [1, 1024, 512] block, read as a double sum over rows and
  features; the mask column [1, 1024, 1] is spread along the features.
-/
import proofs.«152356_j14499809591887_1_alg».proof.Proof.Gen.KernelIdeal.Skeleton
import proofs.«152356_j14499809591887_1_alg».proof.Proof.Sums
import Idealize.ShloMosaic.PureOps.Ideal.Laws
import Idealize.ShloMosaic.Lib.ValueIdx
import Idealize.ShloMosaic.Lib.Pipeline.Value

noncomputable section

open Idealize.ShloMosaic Idealize.ShloMosaic.TcCoe Idealize.SL.Sem Idealize.ShloMosaic.ValueIdx
open scoped BigOperators

namespace Cert.KernelIdeal.TileTotals

open Cert.KernelIdeal Cert.KernelIdeal.Gen MaskedCosine

/-- The mask column spread along the features: entry (r, d) of the spread block is the column's entry r. -/
theorem mask_row (x2 : FVec Ideal S1x1024x1 .f32) (r : Fin 1024) (d : Fin 512) :
    broadcastTo S1x1024x512 x2 broadcasts_S1x1024x1_S1x1024x512 (ix3 0 r d) = x2 (ix3 0 r 0) :=
  broadcastTo_apply x2 broadcasts_S1x1024x1_S1x1024x512 (ix3 0 r d) (ix3 0 r 0) (fun a => by
    match a with
    | ⟨0, _⟩ => show (0 : Nat) = if (1 : Nat) = 1 then 0 else _; rw [if_pos rfl]
    | ⟨1, _⟩ => show r.val = if (1024 : Nat) = 1 then 0 else r.val; rw [if_neg (by decide)]
    | ⟨2, _⟩ => show (0 : Nat) = if (1 : Nat) = 1 then 0 else _; rw [if_pos rfl])

/-- A block's sum over its rows and features, recast to a one-element buffer, is the double sum of its entries. -/
theorem tile_total (v : FVec Ideal S1x1024x512 .f32) (hφ : FKind.Formats .f32)
    (hacc : (0x00000000#32 : BitVec 32) = FKind.add.neutral .f32 hφ) (y : S1x1x1.Idx) :
    shapeCast S1x1x1 (multiReduction .add [1, 2] S1 v 0x00000000#32 reduces_S1x1024x512_S1 hφ hacc) shapeCasts_S1_S1x1x1 y
      = ∑ r : Fin 1024, ∑ d : Fin 512, v (ix3 0 r d) := by
  unfold shapeCast
  refine (Ideal.multiReduction_add_total _ _ _ (by decide) _ _ _).trans ?_
  rw [sum_idx3_unit]

/-- A tile's total of mask · a · b over its 1024 rows and 512 features, the mask taken from the column. -/
def tileTot (mb : FVec Ideal S1x1024x1 .f32) (a b : FVec Ideal S1x1024x512 .f32) : EReal :=
  ∑ r : Fin 1024, ∑ d : Fin 512, mb (ix3 0 r 0) * a (ix3 0 r d) * b (ix3 0 r d)

/-- The update of the first sum: the old value plus the tile's total of (m·p)·t. -/
theorem dot_step (x0 x1 : FVec Ideal S1x1024x512 .f32) (x2 : FVec Ideal S1x1024x1 .f32) (acc : FVec Ideal S1x1x1 .f32)
    (y : S1x1x1.Idx) :
    k0_pay8 (F := Ideal) x0 x1 x2 acc y
      = acc y + tileTot x2 x0 x1 := by
  unfold k0_pay8 k0_pay7 k0_pay6 tileTot
  simp only [shapeCast_self]
  rw [addf_apply]
  refine congrArg (acc y + ·) ((tile_total _ _ _ y).trans ?_)
  refine Finset.sum_congr rfl fun r _ => Finset.sum_congr rfl fun d _ => ?_
  rw [mulf_apply, mulf_apply, mask_row]

/-- The update of the second sum: the old value plus the tile's total of (m·p)·p. -/
theorem pr_step (x0 : FVec Ideal S1x1024x512 .f32) (x2 : FVec Ideal S1x1024x1 .f32) (acc : FVec Ideal S1x1x1 .f32)
    (y : S1x1x1.Idx) :
    k0_pay9 (F := Ideal) x0 x2 acc y
      = acc y + tileTot x2 x0 x0 := by
  unfold k0_pay9 k0_pay7 k0_pay6 tileTot
  simp only [shapeCast_self]
  rw [addf_apply]
  refine congrArg (acc y + ·) ((tile_total _ _ _ y).trans ?_)
  refine Finset.sum_congr rfl fun r _ => Finset.sum_congr rfl fun d _ => ?_
  rw [mulf_apply, mulf_apply, mask_row]

/-- The update of the third sum: the old value plus the tile's total of (m·t)·t. -/
theorem gt_step (x1 : FVec Ideal S1x1024x512 .f32) (x2 : FVec Ideal S1x1024x1 .f32) (acc : FVec Ideal S1x1x1 .f32)
    (y : S1x1x1.Idx) :
    k0_pay1 (F := Ideal) x1 acc (k0_pay10 x2) y
      = acc y + tileTot x2 x1 x1 := by
  unfold k0_pay1 k0_pay10 k0_pay6 tileTot
  simp only [shapeCast_self]
  rw [addf_apply]
  refine congrArg (acc y + ·) ((tile_total _ _ _ y).trans ?_)
  refine Finset.sum_congr rfl fun r _ => Finset.sum_congr rfl fun d _ => ?_
  rw [mulf_apply, mulf_apply, mask_row]

/-- The reset stores zero into each of the three sums. -/
theorem zero_dot (y : S1x1x1.Idx) : k0_pay3 (F := Ideal) y = 0 := by
  unfold k0_pay3
  simp only [shapeCast_self]
  exact Ideal.ofBits_zero_f32
theorem zero_pr (y : S1x1x1.Idx) : k0_pay4 (F := Ideal) y = 0 := by
  unfold k0_pay4
  simp only [shapeCast_self]
  exact Ideal.ofBits_zero_f32
theorem zero_gt (y : S1x1x1.Idx) : k0_pay5 (F := Ideal) y = 0 := by
  unfold k0_pay5
  simp only [shapeCast_self]
  exact Ideal.ofBits_zero_f32

/-- The output payload is the scalar loss of the three sums. -/
theorem loss_apply (pr gt dot : FVec Ideal S1x1x1 .f32) (y : S1x1x1.Idx) :
    k0_pay2 (F := Ideal) pr gt dot y = lossOf (dot y) (pr y) (gt y) := rfl

end Cert.KernelIdeal.TileTotals

end
-- ==== Proof.MemberSums.lean ====
/-
  From a batch member's four tile totals to its sums over all rows and features.

  Point t of the grid reads, from each [16, 4096, ·] array, the block of member t / 4 and rows 1024·(t % 4) … +1023.  So
  a tile total is a double sum over that member's rows 1024·j + r and the features, and the four tile totals of a member,
  added one after the other from zero, are zero plus the sum over all 4096 rows.  The argument is made once, for any two
  of the arrays multiplied under the mask; the three sums are three uses of it.
-/
import proofs.«152356_j14499809591887_1_alg».proof.Proof.Accum
import proofs.«152356_j14499809591887_1_alg».proof.Proof.TileTotals

noncomputable section

open Idealize.ShloMosaic Idealize.ShloMosaic.TcCoe Idealize.SL.Sem Idealize.ShloMosaic.ValueIdx
open Idealize.ShloMosaic.Pipeline (Dat)
open scoped BigOperators

namespace Cert.KernelIdeal.MemberSums

open Cert.KernelIdeal Cert.KernelIdeal.Gen Cert.KernelIdeal.Accum Cert.KernelIdeal.TileTotals MaskedCosine

variable (m : (ℓ : Loc nD τ sig) → Buf (Elt Ideal) ℓ)

/-- The three arrays as the region finds them, at their literal types: the two inputs and the mask as floats. -/
abbrev predArr (c : Dev nD) : FVec Ideal S16x4096x512 .f32 := V m c main_arg0
abbrev targArr (c : Dev nD) : FVec Ideal S16x4096x512 .f32 := V m c main_arg1
abbrev maskArr (c : Dev nD) : FVec Ideal S16x4096x1 .f32 := V m c main_v1

/-- The printed index maps, decided once over the grid: every input window's block index at point t is
    (t / 4, t % 4, 0), the output's (t / 4, 0, 0). -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

/-- The batch member a point works on. -/
def memberOf (t : Fin cfg0.N) : Fin 16 := ⟨t.val / 4, by have := t.isLt; have hN : cfg0.N = 64 := N_0; omega⟩

/-- Entry (r, d) of the first input's block at a point of member q, tile j, is entry (q, 1024 j + r, d) of the array. -/
theorem pblk_apply (c : Dev nD) (t : Fin cfg0.N) (q : Fin 16) (j : Fin 4) (hq : t.val / 4 = q.val) (hj : t.val % 4 = j.val)
    (r : Fin 1024) (d : Fin 512) :
    pblk m c t (ix3 0 r d) = predArr m c (ix3 q (tileRow j r) d) := by
  obtain ⟨e0, e1, e2, -⟩ := idx_facts t
  show V m c main_arg0 (((cfg0.win 0).blk t).view.emb (ix3 0 r d)) = _
  refine congrArg _ (funext fun a => Fin.ext ?_)
  match a with
  | ⟨0, _⟩ => show win0_0.index t (0 : Fin 3) * 1 + 1 * 0 = q.val; omega
  | ⟨1, _⟩ => show win0_0.index t (1 : Fin 3) * 1024 + 1 * r.val = 1024 * j.val + r.val; omega
  | ⟨2, _⟩ => show win0_0.index t (2 : Fin 3) * 512 + 1 * d.val = d.val; omega

/-- The same for the second input. -/
theorem tblk_apply (c : Dev nD) (t : Fin cfg0.N) (q : Fin 16) (j : Fin 4) (hq : t.val / 4 = q.val) (hj : t.val % 4 = j.val)
    (r : Fin 1024) (d : Fin 512) :
    tblk m c t (ix3 0 r d) = targArr m c (ix3 q (tileRow j r) d) := by
  obtain ⟨-, -, -, e0, e1, e2, -⟩ := idx_facts t
  show V m c main_arg1 (((cfg0.win 1).blk t).view.emb (ix3 0 r d)) = _
  refine congrArg _ (funext fun a => Fin.ext ?_)
  match a with
  | ⟨0, _⟩ => show win0_1.index t (0 : Fin 3) * 1 + 1 * 0 = q.val; omega
  | ⟨1, _⟩ => show win0_1.index t (1 : Fin 3) * 1024 + 1 * r.val = 1024 * j.val + r.val; omega
  | ⟨2, _⟩ => show win0_1.index t (2 : Fin 3) * 512 + 1 * d.val = d.val; omega

/-- Entry r of the mask column's block is entry (q, 1024 j + r, 0) of the mask array (the mask as floats, [16, 4096, 1]). -/
theorem mblk_apply (c : Dev nD) (t : Fin cfg0.N) (q : Fin 16) (j : Fin 4) (hq : t.val / 4 = q.val) (hj : t.val % 4 = j.val)
    (r : Fin 1024) :
    mblk m c t (ix3 0 r 0) = maskArr m c (ix3 q (tileRow j r) 0) := by
  obtain ⟨-, -, -, -, -, -, e0, e1, e2, -⟩ := idx_facts t
  show V m c main_v1 (((cfg0.win 2).blk t).view.emb (ix3 0 r 0)) = _
  refine congrArg _ (funext fun a => Fin.ext ?_)
  match a with
  | ⟨0, _⟩ => show win0_2.index t (0 : Fin 3) * 1 + 1 * 0 = q.val; omega
  | ⟨1, _⟩ => show win0_2.index t (1 : Fin 3) * 1024 + 1 * r.val = 1024 * j.val + r.val; omega
  | ⟨2, _⟩ => show win0_2.index t (2 : Fin 3) * 1 + 1 * 0 = 0; omega

/-- A member's sum over all rows and features of mask · A · B, for two of the [16, 4096, 512] arrays. -/
def memberTot (c : Dev nD) (A B : FVec Ideal S16x4096x512 .f32) (q : Fin 16) : EReal :=
  ∑ n : Fin 4096, ∑ d : Fin 512, maskArr m c (ix3 q n 0) * A (ix3 q n d) * B (ix3 q n d)

/-- THE ARGUMENT, once.  Let `a`, `b` give, at each point, blocks that read the arrays `A`, `B` at the point's member and
    tile.  A quantity that is zero plus the tile total of mask · a · b at a tile opening a member, and the tile before's
    value plus that total at every other tile, is at a member's last tile zero plus the member's sum of mask · A · B. -/
theorem member_sum (c : Dev nD) (f : (n : ℕ) → n < cfg0.N → EReal)
    (a b : Fin cfg0.N → FVec Ideal S1x1024x512 .f32) (A B : FVec Ideal S16x4096x512 .f32)
    (ha : ∀ (t : Fin cfg0.N) (q : Fin 16) (j : Fin 4), t.val / 4 = q.val → t.val % 4 = j.val →
      ∀ (r : Fin 1024) (d : Fin 512), a t (ix3 0 r d) = A (ix3 q (tileRow j r) d))
    (hb : ∀ (t : Fin cfg0.N) (q : Fin 16) (j : Fin 4), t.val / 4 = q.val → t.val % 4 = j.val →
      ∀ (r : Fin 1024) (d : Fin 512), b t (ix3 0 r d) = B (ix3 q (tileRow j r) d))
    (h0 : ∀ (n : ℕ) (h : n < cfg0.N), n % 4 = 0 → f n h = 0 + tileTot (mblk m c ⟨n, h⟩) (a ⟨n, h⟩) (b ⟨n, h⟩))
    (hs : ∀ (n : ℕ) (h : n + 1 < cfg0.N), ¬(n + 1) % 4 = 0 →
      f (n + 1) h = f n (Nat.lt_of_succ_lt h) + tileTot (mblk m c ⟨n + 1, h⟩) (a ⟨n + 1, h⟩) (b ⟨n + 1, h⟩))
    (t : Fin cfg0.N) (h3 : t.val % 4 = 3) :
    f t.val t.isLt = 0 + memberTot m c A B (memberOf t) := by
  have hN : cfg0.N = 64 := N_0
  have hfour := four_steps f
    (fun n => if h : n < cfg0.N then tileTot (mblk m c ⟨n, h⟩) (a ⟨n, h⟩) (b ⟨n, h⟩) else 0)
    (fun n h hz => by rw [dif_pos h]; exact h0 n h hz)
    (fun n h hne => by rw [dif_pos h]; exact hs n h hne)
    t.val t.isLt h3
  unfold memberTot
  rw [hfour, ← tiles_chain_eq (fun n d => maskArr m c (ix3 (memberOf t) n 0) * A (ix3 (memberOf t) n d) * B (ix3 (memberOf t) n d))]
  refine congrArg _ (Finset.sum_congr rfl fun s hs' => ?_)
  have hs4 : s < 4 := Finset.mem_range.mp hs'
  have hlt : 4 * (t.val / 4) + s < cfg0.N := by have := t.isLt; omega
  have hq : (⟨4 * (t.val / 4) + s, hlt⟩ : Fin cfg0.N).val / 4 = (memberOf t).val := by
    show (4 * (t.val / 4) + s) / 4 = t.val / 4; omega
  have hj : (⟨4 * (t.val / 4) + s, hlt⟩ : Fin cfg0.N).val % 4 = (⟨s, hs4⟩ : Fin 4).val := by
    show (4 * (t.val / 4) + s) % 4 = s; omega
  rw [dif_pos hs4, dif_pos hlt]
  unfold tileTot
  refine Finset.sum_congr rfl fun r _ => Finset.sum_congr rfl fun d _ => ?_
  rw [ha _ _ _ hq hj r d, hb _ _ _ hq hj r d, mblk_apply m c _ _ _ hq hj r]

/-- The first sum, m·p·t, after a member's last tile. -/
theorem dot_member (c : Dev nD) (t : Fin cfg0.N) (h3 : t.val % 4 = 3) (y : S1x1x1.Idx) :
    (outsAt0 m c t.val t.isLt).2.1 y = 0 + memberTot m c (predArr m c) (targArr m c) (memberOf t) :=
  member_sum m c (fun n h => (outsAt0 m c n h).2.1 y) (pblk m c) (tblk m c) _ _
    (fun t q j hq hj r d => pblk_apply m c t q j hq hj r d) (fun t q j hq hj r d => tblk_apply m c t q j hq hj r d)
    (fun n h hz => by
      refine (congrFun (congrArg (fun s : Sums Ideal => s.1) (sums_first m c ⟨n, h⟩ hz)) y).trans ?_
      refine (dot_step (pblk m c ⟨n, h⟩) (tblk m c ⟨n, h⟩) (mblk m c ⟨n, h⟩) (k0_pay3 (F := Ideal)) y).trans ?_
      rw [zero_dot])
    (fun n h hne => by
      refine (congrFun (congrArg (fun s : Sums Ideal => s.1) (sums_later m c ⟨n + 1, h⟩ hne)) y).trans ?_
      exact dot_step (pblk m c ⟨n + 1, h⟩) (tblk m c ⟨n + 1, h⟩) (mblk m c ⟨n + 1, h⟩) _ y)
    t h3

/-- The second sum, m·p·p. -/
theorem pr_member (c : Dev nD) (t : Fin cfg0.N) (h3 : t.val % 4 = 3) (y : S1x1x1.Idx) :
    (outsAt0 m c t.val t.isLt).2.2.1 y = 0 + memberTot m c (predArr m c) (predArr m c) (memberOf t) :=
  member_sum m c (fun n h => (outsAt0 m c n h).2.2.1 y) (pblk m c) (pblk m c) _ _
    (fun t q j hq hj r d => pblk_apply m c t q j hq hj r d) (fun t q j hq hj r d => pblk_apply m c t q j hq hj r d)
    (fun n h hz => by
      refine (congrFun (congrArg (fun s : Sums Ideal => s.2.1) (sums_first m c ⟨n, h⟩ hz)) y).trans ?_
      refine (pr_step (pblk m c ⟨n, h⟩) (mblk m c ⟨n, h⟩) (k0_pay4 (F := Ideal)) y).trans ?_
      rw [zero_pr])
    (fun n h hne => by
      refine (congrFun (congrArg (fun s : Sums Ideal => s.2.1) (sums_later m c ⟨n + 1, h⟩ hne)) y).trans ?_
      exact pr_step (pblk m c ⟨n + 1, h⟩) (mblk m c ⟨n + 1, h⟩) _ y)
    t h3

/-- The third sum, m·t·t. -/
theorem gt_member (c : Dev nD) (t : Fin cfg0.N) (h3 : t.val % 4 = 3) (y : S1x1x1.Idx) :
    (outsAt0 m c t.val t.isLt).2.2.2 y = 0 + memberTot m c (targArr m c) (targArr m c) (memberOf t) :=
  member_sum m c (fun n h => (outsAt0 m c n h).2.2.2 y) (tblk m c) (tblk m c) _ _
    (fun t q j hq hj r d => tblk_apply m c t q j hq hj r d) (fun t q j hq hj r d => tblk_apply m c t q j hq hj r d)
    (fun n h hz => by
      refine (congrFun (congrArg (fun s : Sums Ideal => s.2.2) (sums_first m c ⟨n, h⟩ hz)) y).trans ?_
      refine (gt_step (tblk m c ⟨n, h⟩) (mblk m c ⟨n, h⟩) (k0_pay5 (F := Ideal)) y).trans ?_
      rw [zero_gt])
    (fun n h hne => by
      refine (congrFun (congrArg (fun s : Sums Ideal => s.2.2) (sums_later m c ⟨n + 1, h⟩ hne)) y).trans ?_
      exact gt_step (tblk m c ⟨n + 1, h⟩) (mblk m c ⟨n + 1, h⟩) _ y)
    t h3

end Cert.KernelIdeal.MemberSums

end
-- ==== Proof.KernelValue.lean ====
/-
  What the idealized kernel's run leaves in its result: the mean of the sixteen members' losses, each the loss of the
  member's three whole sums.

  The output window's block at point t is entry (t / 4, 0, 0) of the [16, 1, 1] array, written back at a member's last
  tile only; those sixteen write-backs cover the array, so it ends holding the sixteen losses.  The lines after the call
  reshape it to [16], sum it from zero and divide by sixteen.
-/
import proofs.«152356_j14499809591887_1_alg».proof.Proof.MemberSums
import Idealize.ShloMosaic.Lib.StableHlo.Run

noncomputable section

open Idealize.ShloMosaic Idealize.ShloMosaic.TcCoe Idealize.SL.Sem Idealize.ShloMosaic.ValueIdx
open Idealize.ShloMosaic.Pipeline (Dat)
open scoped BigOperators

namespace Cert.KernelIdeal.KValue

open Cert.KernelIdeal Cert.KernelIdeal.Gen Cert.KernelIdeal.Accum Cert.KernelIdeal.TileTotals Cert.KernelIdeal.MemberSums MaskedCosine

variable (m : (ℓ : Loc nD τ sig) → Buf (Elt Ideal) ℓ) (ρ : Dev nD → PrngReg)

/-- A member's loss, from its three whole sums. -/
def memberLoss (c : Dev nD) (q : Fin 16) : EReal :=
  lossOf (0 + memberTot m c (predArr m c) (targArr m c) q) (0 + memberTot m c (predArr m c) (predArr m c) q)
    (0 + memberTot m c (targArr m c) (targArr m c) q)

/-- The [16, 1, 1] array of the members' losses. -/
def lossArr (c : Dev nD) : FVec Ideal S16x1x1 .f32 := fun i => memberLoss m c (i 0)

/-- What a member's last tile writes back is that member's entry of the array of losses. -/
theorem flushed_eq (c : Dev nD) (t : Fin cfg0.N) (hf : (cfg0.win 3).flush t = true) :
    (dats m 0 c).flushed 3 t = ((cfg0.win 3).blk t).view.read (Elt Ideal) (lossArr m c) := by
  have h3 : t.val % 4 = 3 := (flush0_3 t).mp hf
  obtain ⟨-, -, -, -, -, -, -, -, -, e0, e1, e2⟩ := idx_facts t
  show (cfg0.win 3).cut (grid0.coords t) ((dats m 0 c).after 3 t) = _
  rw [after0_3]
  funext y
  show (outsAt0 m c t.val t.isLt).1 y = lossArr m c (((cfg0.win 3).blk t).view.emb y)
  rw [loss_at_last m c t h3, loss_apply, dot_member m c t h3 y, pr_member m c t h3 y, gt_member m c t h3 y]
  show memberLoss m c (memberOf t) = memberLoss m c ((((cfg0.win 3).blk t).view.emb y) 0)
  refine congrArg _ (Fin.ext ?_)
  show t.val / 4 = win0_3.index t (0 : Fin 3) * 1 + 1 * (y 0).val
  have hy : (y 0).val < 1 := (y 0).isLt
  omega

/-- An index of the array is in point t's block iff each coordinate is in the block's range on its axis. -/
theorem mem_blk (t : Fin cfg0.N) (i : S16x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v2).slice (win0_3.rect t)).set ↔ _
  rw [View.set_slice_whole, Rect.mem_set_unit]
  exact Iff.rfl

/-- Entry (b, 0, 0) is written back by the last tile of member b. -/
theorem cover (i : S16x1x1.Idx) : ∃ t : Fin cfg0.N, (cfg0.win 3).flush t = true ∧ i ∈ ((cfg0.win 3).blk t).view.set := by
  have hN : cfg0.N = 64 := N_0
  have hi0 : (i 0).val < 16 := (i 0).isLt
  have hi1 : (i 1).val < 1 := (i 1).isLt
  have hi2 : (i 2).val < 1 := (i 2).isLt
  have hlt : 4 * (i 0).val + 3 < cfg0.N := by omega
  refine ⟨⟨4 * (i 0).val + 3, hlt⟩, (flush0_3 _).mpr (by show (4 * (i 0).val + 3) % 4 = 3; omega), ?_⟩
  rw [mem_blk]
  obtain ⟨-, -, -, -, -, -, -, -, -, e0, e1, e2⟩ := idx_facts ⟨4 * (i 0).val + 3, hlt⟩
  have e0' : win0_3.index ⟨4 * (i 0).val + 3, hlt⟩ (0 : Fin 3) = (i 0).val := by
    rw [e0]; show (4 * (i 0).val + 3) / 4 = (i 0).val; omega
  intro a
  match a with
  | ⟨0, _⟩ => show win0_3.index ⟨4 * (i 0).val + 3, hlt⟩ (0 : Fin 3) * 1 ≤ (i 0).val ∧ (i 0).val < win0_3.index ⟨4 * (i 0).val + 3, hlt⟩ (0 : Fin 3) * 1 + 1; omega
  | ⟨1, _⟩ => show win0_3.index ⟨4 * (i 0).val + 3, hlt⟩ (1 : Fin 3) * 1 ≤ (i 1).val ∧ (i 1).val < win0_3.index ⟨4 * (i 0).val + 3, hlt⟩ (1 : Fin 3) * 1 + 1; omega
  | ⟨2, _⟩ => show win0_3.index ⟨4 * (i 0).val + 3, hlt⟩ (2 : Fin 3) * 1 ≤ (i 2).val ∧ (i 2).val < win0_3.index ⟨4 * (i 0).val + 3, hlt⟩ (2 : Fin 3) * 1 + 1; omega

/-- So the output array ends holding the sixteen losses. -/
theorem final_losses (c : Dev nD) : (dats m 0 c).arrAt 3 cfg0.N = lossArr m c :=
  (dats m 0 c).arrAt_eq_of_cover 3 (lossArr m c) (flushed_eq m c) (cover)

/-- The lines after the call leave the mean of the sixteen losses in the result. -/
theorem tail_eq (c : Dev nD) :
    Pipeline.afterTail₀ cfgs (dats m) 0 (V0 m) [hostOps1] c main_v5 = meanOf (fun j => memberLoss m c (j 0)) := by
  unfold Pipeline.afterTail₀
  show StableHlo.after hostOps1 _ (Proc.devRef .tc main_v5) = _
  after_results
  have key : ∀ v : FVec Ideal S16 .f32, v = (fun j => memberLoss m c (j 0)) →
      Host.divf (F := Ideal) (Host.reduceAdd (F := Ideal) v (constant (F := Ideal) S_ .f32 0x00000000#32) reducesTo_S16_S_d0 h_S_)
        (constant (F := Ideal) S_ .f32 0x41800000#32) = meanOf (fun j => memberLoss m c (j 0)) := by
    intro v hv; subst hv; rfl
  refine key _ ?_
  have hw : Pipeline.withArrays spec0 c (V0 m c) (fun w => (dats m 0 c).arrAt w cfg0.N) (Proc.devRef .tc main_v2) = lossArr m c :=
    (Pipeline.withArrays_arr spec0 launch0.win.arr_inj c _ _ 3).trans (final_losses m c)
  funext i
  show shapeCast S16 (Pipeline.withArrays spec0 c (V0 m c) (fun w => (dats m 0 c).arrAt w cfg0.N) (Proc.devRef .tc main_v2)) shapeCasts_S16x1x1_S16 i = _
  rw [hw]
  exact shapeCast_apply (lossArr m c) shapeCasts_S16x1x1_S16 i (ix3 (i 0) 0 0)
    (by rw [Shape.rowMajor_val_three, Shape.rowMajor_val_one]; show ((i 0).val * 1 + 0) * 1 + 0 = (i 0).val; omega)

/-! ## The arrays the region finds, in terms of the arguments -/

/-- The mask array the call reads is the integer mask reshaped to [16, 4096, 1] and converted to floats. -/
theorem maskArr_eq (c : Dev nD) :
    maskArr m c = sitofp .f32 (shapeCast S16x4096x1 (m ((c : Thread nD τ).loc main_arg2)) shapeCasts_S16x64x64_S16x4096x1) := by
  show StableHlo.after hostOps0 (fun b => m (c, b)) (Proc.devRef .tc main_v1) = _
  after_results
  rfl

/-- The result as the one function of the mask and the inputs. -/
theorem result_eq (c : Dev nD) :
    meanOf (fun j => memberLoss m c (j 0))
      = result (sitofp .f32 (shapeCast S16x4096x1 (m ((c : Thread nD τ).loc main_arg2)) shapeCasts_S16x64x64_S16x4096x1))
          (m ((c : Thread nD τ).loc main_arg0)) (m ((c : Thread nD τ).loc main_arg1)) := by
  have e0 : predArr m c = m ((c : Thread nD τ).loc main_arg0) := V_main_arg0 m c
  have e1 : targArr m c = m ((c : Thread nD τ).loc main_arg1) := V_main_arg1 m c
  rw [← maskArr_eq m c, ← e0, ← e1]
  rfl

/-! ## The run, read -/

/-- Every weakly fair execution of the idealized kernel ends with the result at that function of the arguments, and
    the arguments as they were. -/
theorem run : θ_run defs (onTc (τ := τ) (main (F := Ideal))) ⟨m, fun _ => 0, ρ⟩ fun r => ∀ c : Dev nD,
      r.2.mem ((c : Thread nD τ).loc main_v5)
        = result (sitofp .f32 (shapeCast S16x4096x1 (m ((c : Thread nD τ).loc main_arg2)) shapeCasts_S16x64x64_S16x4096x1))
            (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v5 (Pipeline.mem_restRefs_of main_v5 (by decide) (by decide))).trans ((tail_eq m c).trans (result_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KValue

end
-- ==== Proof.RefValue.lean ====
/-
  What the idealized reference computes, read one operation at a time, is the same function of the mask and the two inputs.

  Its three sums run over all rows and features of one batch member at once: each is the initial zero plus the double sum
  of mask · A · B, the mask column spread along the features.  From the three sums to a member's loss it spells the
  negation as a negation where the other side subtracts from zero, and the square root and the quotient by their host
  names; over the extended reals these are the same functions.  Its last two lines are the mean as defined.
-/
import proofs.«152356_j14499809591887_1_alg».proof.Proof.Gen.ReferenceIdeal.Read
import proofs.«152356_j14499809591887_1_alg».proof.Proof.Sums
import Idealize.ShloMosaic.Lib.IdealHost

noncomputable section

open Idealize.ShloMosaic Idealize.ShloMosaic.TcCoe Idealize.SL.Sem Idealize.ShloMosaic.ValueIdx
open scoped BigOperators

namespace Cert.ReferenceIdeal.RefValue

open Cert.ReferenceIdeal Cert.ReferenceIdeal.Gen Cert.ReferenceIdeal.Read MaskedCosine

variable (x0 x1 : FVec Ideal S16x4096x512 .f32) (x2 : (⟨S16x64x64, .i32⟩ : BufTy).Contents (Elt Ideal))

/-- The mask as floats, [16, 4096, 1]. -/
abbrev maskF : FVec Ideal S16x4096x1 .f32 := val_main_v1 (F := Ideal) x2

/-- Each of the three spreads of the mask column along the features reads the column at the row. -/
theorem spread_a (q : Fin 16) (n : Fin 4096) (d : Fin 512) :
    val_main_v2 (F := Ideal) x2 (ix3 q n d) = maskF x2 (ix3 q n 0) := by
  rw [val_main_v2_apply]
  refine congrArg _ (funext fun a => ?_)
  match a with
  | ⟨0, _⟩ => rfl
  | ⟨1, _⟩ => rfl
  | ⟨2, _⟩ => rfl
theorem spread_b (q : Fin 16) (n : Fin 4096) (d : Fin 512) :
    val_main_v6 (F := Ideal) x2 (ix3 q n d) = maskF x2 (ix3 q n 0) := by
  rw [val_main_v6_apply]
  refine congrArg _ (funext fun a => ?_)
  match a with
  | ⟨0, _⟩ => rfl
  | ⟨1, _⟩ => rfl
  | ⟨2, _⟩ => rfl
theorem spread_c (q : Fin 16) (n : Fin 4096) (d : Fin 512) :
    val_main_v11 (F := Ideal) x2 (ix3 q n d) = maskF x2 (ix3 q n 0) := by
  rw [val_main_v11_apply]
  refine congrArg _ (funext fun a => ?_)
  match a with
  | ⟨0, _⟩ => rfl
  | ⟨1, _⟩ => rfl
  | ⟨2, _⟩ => rfl

/-- The first sum, m·p·t, of member j. -/
theorem dot_apply (q : Fin 16) :
    val_main_v5 (F := Ideal) x0 x1 x2 (ix1 q) = 0 + memberSum (maskF x2) x0 x1 q := by
  unfold val_main_v5
  rw [hostReduceAdd_apply, hostSum_member]
  show Ideal.ofBits .f32 0x00000000#32 + ∑ n : Fin 4096, ∑ d : Fin 512, val_main_v4 (F := Ideal) x0 x1 x2 (ix3 q n d) = _
  rw [Ideal.ofBits_zero_f32]
  unfold memberSum
  refine congrArg _ (Finset.sum_congr rfl fun n _ => Finset.sum_congr rfl fun d _ => ?_)
  rw [val_main_v4_apply, val_main_v3_apply, spread_a]
  rfl

/-- The second sum, m·p·p. -/
theorem pr_apply (q : Fin 16) :
    val_main_v9 (F := Ideal) x0 x2 (ix1 q) = 0 + memberSum (maskF x2) x0 x0 q := by
  unfold val_main_v9
  rw [hostReduceAdd_apply, hostSum_member]
  show Ideal.ofBits .f32 0x00000000#32 + ∑ n : Fin 4096, ∑ d : Fin 512, val_main_v8 (F := Ideal) x0 x2 (ix3 q n d) = _
  rw [Ideal.ofBits_zero_f32]
  unfold memberSum
  refine congrArg _ (Finset.sum_congr rfl fun n _ => Finset.sum_congr rfl fun d _ => ?_)
  rw [val_main_v8_apply, val_main_v7_apply, spread_b]
  rfl

/-- The third sum, m·t·t. -/
theorem gt_apply (q : Fin 16) :
    val_main_v14 (F := Ideal) x1 x2 (ix1 q) = 0 + memberSum (maskF x2) x1 x1 q := by
  unfold val_main_v14
  rw [hostReduceAdd_apply, hostSum_member]
  show Ideal.ofBits .f32 0x00000000#32 + ∑ n : Fin 4096, ∑ d : Fin 512, val_main_v13 (F := Ideal) x1 x2 (ix3 q n d) = _
  rw [Ideal.ofBits_zero_f32]
  unfold memberSum
  refine congrArg _ (Finset.sum_congr rfl fun n _ => Finset.sum_congr rfl fun d _ => ?_)
  rw [val_main_v13_apply, val_main_v12_apply, spread_c]
  rfl

/-- Member j's loss is the loss of its three sums: negating is subtracting from zero. -/
theorem loss_apply (j : S16.Idx) :
    val_main_v24 (F := Ideal) x0 x1 x2 j
      = lossOf (val_main_v5 (F := Ideal) x0 x1 x2 j) (val_main_v9 (F := Ideal) x0 x2 j) (val_main_v14 (F := Ideal) x1 x2 j) := by
  rw [val_main_v24_apply, val_main_v18_apply, val_main_v23_apply, val_main_v19_apply, val_main_v22_apply, val_main_v21_apply,
    val_main_v16_apply, val_main_v10_apply, val_main_v15_apply, val_main_v17_apply, val_main_v20_apply,
    val_main_call1_v1_apply, val_main_call0_v1_apply]
  have hneg : FloatOps.hostNegf (val_main_v5 (F := Ideal) x0 x1 x2 j)
      = FloatOps.subf (FloatOps.ofBits (F := Ideal) .f32 0x00000000#32) (val_main_v5 (F := Ideal) x0 x1 x2 j) := by
    show -_ = Ideal.ofBits .f32 0x00000000#32 - _
    rw [Ideal.ofBits_zero_f32, zero_sub]
  rw [hneg]
  rfl

/-- The reference's result is the one function of the mask and the inputs. -/
theorem result_eq : val_main_v26 (F := Ideal) x0 x1 x2 = result (maskF x2) x0 x1 := by
  show meanOf (val_main_v24 (F := Ideal) x0 x1 x2) = meanOf (fun j => memberLossOf (maskF x2) x0 x1 (j 0))
  refine congrArg meanOf (funext fun j => ?_)
  obtain ⟨q, rfl⟩ : ∃ q : Fin 16, j = ix1 q := ⟨j 0, eq_ix1 j⟩
  rw [loss_apply, dot_apply, pr_apply, gt_apply]
  rfl

end Cert.ReferenceIdeal.RefValue

end
-- ==== Proof.lean ====
/-
  The masked cosine loss: sixteen batch members, each with 4096 rows of 512 features and a mask value per row.  For a
  member, with m the mask as a float and p, t the two inputs, let dot = Σ m·p·t, pr = Σ m·p·p, gt = Σ m·t·t over all
  rows and features, and den = √pr · √gt; the member's loss is (0 − dot) / den where den > 0 and zero elsewhere, and the
  result is the sum of the sixteen losses divided by sixteen.

  The kernel takes the three sums tile by tile (four tiles of 1024 rows), adding each tile's total to a one-element buffer
  it resets at a member's first tile, and computes the loss at the member's last tile; the reference takes each sum in
  one piece.  Over the extended reals the two results are one function of the arguments: the tile totals added from zero
  are the whole sum by commutativity and associativity of addition alone (so the finiteness of the inputs is never used),
  subtracting from zero is negating, and the kernel's square root and quotient are the reference's.

  Proof/Sums.lean states that function and the two laws of sums; Proof/Pieces.lean, Accum.lean, TileTotals.lean,
  MemberSums.lean and KernelValue.lean read the kernel's run down to it; Proof/RefValue.lean reads the reference's.
-/
import proofs.«152356_j14499809591887_1_alg».proof.Defs
import proofs.«152356_j14499809591887_1_alg».proof.Proof.Gen.Kernel
import proofs.«152356_j14499809591887_1_alg».proof.Proof.Gen.Kernel.Skeleton
import proofs.«152356_j14499809591887_1_alg».proof.Proof.Gen.Kernel.Launch
import proofs.«152356_j14499809591887_1_alg».proof.Proof.Gen.Kernel.Points
import proofs.«152356_j14499809591887_1_alg».proof.Proof.Gen.Kernel.Frame
import proofs.«152356_j14499809591887_1_alg».proof.Proof.Gen.KernelIdeal
import proofs.«152356_j14499809591887_1_alg».proof.Proof.Gen.KernelIdeal.Skeleton
import proofs.«152356_j14499809591887_1_alg».proof.Proof.Gen.KernelIdeal.Launch
import proofs.«152356_j14499809591887_1_alg».proof.Proof.Gen.KernelIdeal.Points
import proofs.«152356_j14499809591887_1_alg».proof.Proof.Gen.KernelIdeal.Frame
import proofs.«152356_j14499809591887_1_alg».proof.Proof.Gen.ReferenceIdeal
import proofs.«152356_j14499809591887_1_alg».proof.Proof.Gen.Pre_finite_inputs
import proofs.«152356_j14499809591887_1_alg».proof.Proof.Gen.ReferenceIdeal.Run
import proofs.«152356_j14499809591887_1_alg».proof.Proof.Gen.ReferenceIdeal.Read
import proofs.«152356_j14499809591887_1_alg».proof.Proof.KernelValue
import proofs.«152356_j14499809591887_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the mean of the sixteen members' losses, the one
    function `MaskedCosine.result` of the mask as floats and the two inputs. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v26_eq, Cert.ReferenceIdeal.RefValue.result_eq,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
